-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1048576x128 : Shape := ⟨2, ![1048576, 128]⟩
abbrev S128x128 : Shape := ⟨2, ![128, 128]⟩
abbrev S128 : Shape := ⟨1, ![128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1048576x128 : S_.BroadcastsInDim S1048576x128 (![] : Fin 0 → Fin S1048576x128.rank)
  reducesTo_S1048576x128_S_d0_1 : S1048576x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S1024x128 .f32) (main_arg1 : FVec F S1048576x128 .f32) (main_arg2 : FVec F S128x128 .f32) (main_arg3 : FVec F S128 .f32) (main_arg4 : FVec F S128x128 .f32) (main_arg5 : FVec F S128x128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1048576x128 .f32 := Host.absf main_arg1
  let main_cst_0 : FVec F S_ .f32 := constant S_ .f32 0x7F800000#32
  let main_v5 : FVec F S1048576x128 .f32 := broadcastInDim S1048576x128 ![] bcast_S_S1048576x128 main_cst_0
  let main_v6 : IVec S1048576x128 1 := cmpf .olt main_v4 main_v5
  let main_c_1 : IVec S_ 1 := constantI S_ 1 1#1
  let main_v7 : IVec S_ 1 := (fun x v => Host.reduce IntOp.andi x v reducesTo_S1048576x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S1024x128 : Shape := ⟨2, ![1024, 128]⟩
abbrev S1048576x128 : Shape := ⟨2, ![1048576, 128]⟩
abbrev S128x128 : Shape := ⟨2, ![128, 128]⟩
abbrev S128 : Shape := ⟨1, ![128]⟩
abbrev S128x1024 : Shape := ⟨2, ![128, 1024]⟩
abbrev S1024x1024 : Shape := ⟨2, ![1024, 1024]⟩
abbrev S1x128 : Shape := ⟨2, ![1, 128]⟩
abbrev S1024x1024x128 : Shape := ⟨3, ![1024, 1024, 128]⟩
abbrev S8x1024x128 : Shape := ⟨3, ![8, 1024, 128]⟩
abbrev S8x1024 : Shape := ⟨2, ![8, 1024]⟩
abbrev S1x1024x128 : Shape := ⟨3, ![1, 1024, 128]⟩
abbrev S1x1024 : Shape := ⟨2, ![1, 1024]⟩
abbrev S1024 : Shape := ⟨1, ![1024]⟩
abbrev S1024x1 : Shape := ⟨2, ![1024, 1]⟩

abbrev nBuf : Space → Nat
  | .hbm => 17
  | .vmem => 8
  | .smem => 0
  | _ => 0

abbrev bufTy : (tb : Table) → Fin (tcTables nBuf tb) → BufTy
  | .hbm, ⟨0, _⟩ => ⟨S1024x128, .f32⟩
  | .hbm, ⟨1, _⟩ => ⟨S1048576x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S1024x128, .f32⟩
  | .hbm, ⟨8, _⟩ => ⟨S128x128, .f32⟩
  | .hbm, ⟨9, _⟩ => ⟨S1024x128, .f32⟩
  | .hbm, ⟨10, _⟩ => ⟨S128x1024, .f32⟩
  | .hbm, ⟨11, _⟩ => ⟨S1024x1024, .f32⟩
  | .hbm, ⟨12, _⟩ => ⟨S128x128, .f32⟩
  | .hbm, ⟨13, _⟩ => ⟨S1x128, .f32⟩
  | .hbm, ⟨14, _⟩ => ⟨S1024x1024x128, .f32⟩
  | .hbm, ⟨15, _⟩ => ⟨S1024x1024x128, .f32⟩
  | .hbm, ⟨16, _⟩ => ⟨S1048576x128, .f32⟩
  | .local _ .vmem, ⟨0, _⟩ => ⟨S8x1024x128, .f32⟩
  | .local _ .vmem, ⟨1, _⟩ => ⟨S8x1024x128, .f32⟩
  | .local _ .vmem, ⟨2, _⟩ => ⟨S8x1024, .f32⟩
  | .local _ .vmem, ⟨3, _⟩ => ⟨S8x1024, .f32⟩
  | .local _ .vmem, ⟨4, _⟩ => ⟨S128x128, .f32⟩
  | .local _ .vmem, ⟨5, _⟩ => ⟨S1x128, .f32⟩
  | .local _ .vmem, ⟨6, _⟩ => ⟨S8x1024x128, .f32⟩
  | .local _ .vmem, ⟨7, _⟩ => ⟨S8x1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x128_S128x128_1_0 : S128x128.Transposes [1, 0] S128x128
  transposes_S1024x128_S128x1024_1_0 : S1024x128.Transposes [1, 0] S128x1024
  shapeCasts_S128_S1x128 : S128.ShapeCasts S1x128
  shapeCasts_S1048576x128_S1024x1024x128 : S1048576x128.ShapeCasts S1024x1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8x1024x128_S1x1024x128_0_0_0 : ∀ a, (![0, 0, 0] : Fin 3 → Nat) a + S1x1024x128.size a ≤ S8x1024x128.size a
  h_S1x1024x128 : 0 < S1x1024x128.numel
  shapeCasts_S1x1024x128_S1024x128 : S1x1024x128.ShapeCasts S1024x128
  broadcasts_S1x128_S1024x128 : S1x128.Broadcasts S1024x128
  inb_S8x1024_S1x1024_0_0 : ∀ a, (![0, 0] : Fin 2 → Nat) a + S1x1024.size a ≤ S8x1024.size a
  h_S1x1024 : 0 < S1x1024.numel
  shapeCasts_S1x1024_S1024 : S1x1024.ShapeCasts S1024
  shapeCasts_S1024_S1024x1 : S1024.ShapeCasts S1024x1
  broadcasts_S1024x1_S1024x128 : S1024x1.Broadcasts S1024x128
  shapeCasts_S1024x128_S1x1024x128 : S1024x128.ShapeCasts S1x1024x128
  inb_S8x1024x128_S1x1024x128_1_0_0 : ∀ a, (![1, 0, 0] : Fin 3 → Nat) a + S1x1024x128.size a ≤ S8x1024x128.size a
  inb_S8x1024_S1x1024_1_0 : ∀ a, (![1, 0] : Fin 2 → Nat) a + S1x1024.size a ≤ S8x1024.size a
  inb_S8x1024x128_S1x1024x128_2_0_0 : ∀ a, (![2, 0, 0] : Fin 3 → Nat) a + S1x1024x128.size a ≤ S8x1024x128.size a
  inb_S8x1024_S1x1024_2_0 : ∀ a, (![2, 0] : Fin 2 → Nat) a + S1x1024.size a ≤ S8x1024.size a
  inb_S8x1024x128_S1x1024x128_3_0_0 : ∀ a, (![3, 0, 0] : Fin 3 → Nat) a + S1x1024x128.size a ≤ S8x1024x128.size a
  inb_S8x1024_S1x1024_3_0 : ∀ a, (![3, 0] : Fin 2 → Nat) a + S1x1024.size a ≤ S8x1024.size a
  inb_S8x1024x128_S1x1024x128_4_0_0 : ∀ a, (![4, 0, 0] : Fin 3 → Nat) a + S1x1024x128.size a ≤ S8x1024x128.size a
  inb_S8x1024_S1x1024_4_0 : ∀ a, (![4, 0] : Fin 2 → Nat) a + S1x1024.size a ≤ S8x1024.size a
  inb_S8x1024x128_S1x1024x128_5_0_0 : ∀ a, (![5, 0, 0] : Fin 3 → Nat) a + S1x1024x128.size a ≤ S8x1024x128.size a
  inb_S8x1024_S1x1024_5_0 : ∀ a, (![5, 0] : Fin 2 → Nat) a + S1x1024.size a ≤ S8x1024.size a
  inb_S8x1024x128_S1x1024x128_6_0_0 : ∀ a, (![6, 0, 0] : Fin 3 → Nat) a + S1x1024x128.size a ≤ S8x1024x128.size a
  inb_S8x1024_S1x1024_6_0 : ∀ a, (![6, 0] : Fin 2 → Nat) a + S1x1024.size a ≤ S8x1024.size a
  inb_S8x1024x128_S1x1024x128_7_0_0 : ∀ a, (![7, 0, 0] : Fin 3 → Nat) a + S1x1024x128.size a ≤ S8x1024x128.size a
  inb_S8x1024_S1x1024_7_0 : ∀ a, (![7, 0] : Fin 2 → Nat) a + S1x1024.size a ≤ S8x1024.size a
  shapeCasts_S1024x1024x128_S1048576x128 : S1024x1024x128.ShapeCasts S1048576x128
  dot_S1024x128_S128x128_S1024x128_1_0_0_1_n_n_wf : DotDims.WF S1024x128 S128x128 S1024x128 [1] [0] [0] [1] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x128.size a ≤ S1024x1024x128.size a
  hwx0_0 : ∀ i : grid0.Coords, EltTy.bits .f32 = 32 ∨ (Rect.block (s := S1024x1024x128) S8x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S1024x1024.size a
  hwx0_1 : ∀ i : grid0.Coords, EltTy.bits .f32 = 32 ∨ (Rect.block (s := S1024x1024) S8x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024x128.size a ≤ S1024x1024x128.size a
  hwx0_4 : ∀ i : grid0.Coords, EltTy.bits .f32 = 32 ∨ (Rect.block (s := S1024x1024x128) S8x1024x128.size (cc0_transform_4 i) (hinb0_4 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v8) S8x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S8x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x128 : Shape := ⟨2, ![1024, 128]⟩
abbrev S1048576x128 : Shape := ⟨2, ![1048576, 128]⟩
abbrev S128x128 : Shape := ⟨2, ![128, 128]⟩
abbrev S128 : Shape := ⟨1, ![128]⟩
abbrev S1x128 : Shape := ⟨2, ![1, 128]⟩
abbrev S1024x1024 : Shape := ⟨2, ![1024, 1024]⟩
abbrev S1048576x1 : Shape := ⟨2, ![1048576, 1]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1048576x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S1048576x128, .f32⟩
  | .hbm, ⟨8, _⟩ => ⟨S1x128, .f32⟩
  | .hbm, ⟨9, _⟩ => ⟨S1048576x128, .f32⟩
  | .hbm, ⟨10, _⟩ => ⟨S1048576x128, .f32⟩
  | .hbm, ⟨11, _⟩ => ⟨S128x128, .f32⟩
  | .hbm, ⟨12, _⟩ => ⟨S1024x128, .f32⟩
  | .hbm, ⟨13, _⟩ => ⟨S128x128, .f32⟩
  | .hbm, ⟨14, _⟩ => ⟨S1024x128, .f32⟩
  | .hbm, ⟨15, _⟩ => ⟨S1024x1024, .f32⟩
  | .hbm, ⟨16, _⟩ => ⟨S1048576x1, .f32⟩
  | .hbm, ⟨17, _⟩ => ⟨S1048576x128, .f32⟩
  | .hbm, ⟨18, _⟩ => ⟨S1048576x128, .f32⟩
  | .hbm, ⟨19, _⟩ => ⟨S_, .f32⟩
  | .hbm, ⟨20, _⟩ => ⟨S1048576x128, .f32⟩
  | .hbm, ⟨21, _⟩ => ⟨S1048576x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_cst : Ref sig .tc := ⟨.hbm, 19, rfl⟩
abbrev main_call0_v0 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  shapeCasts_S1024x1024_S1048576x1 : S1024x1024.ShapeCasts S1048576x1
  bcast_S1048576x1_S1048576x128_0_1 : S1048576x1.BroadcastsInDim S1048576x128 (![0, 1] : Fin 2 → Fin S1048576x128.rank)
  bcast_S_S1048576x128 : S_.BroadcastsInDim S1048576x128 (![] : Fin 0 → Fin S1048576x128.rank)
  dot_S1048576x128_S128x128_S1048576x128_1_0_0_1_n_n_wf : DotDims.WF S1048576x128 S128x128 S1048576x128 [1] [0] [0] [1] [] []
  dot_S1024x128_S128x128_S1024x128_1_0_0_1_n_n_wf : DotDims.WF S1024x128 S128x128 S1024x128 [1] [0] [0] [1] [] []
  dot_S1024x128_S1024x128_S1024x1024_1_1_0_0_n_n_wf : DotDims.WF S1024x128 S1024x128 S1024x1024 [1] [1] [0] [0] [] []

variable [Facts₀]

def dot_S1048576x128_S128x128_S1048576x128_1_0_0_1_n_n : DotDims S1048576x128 S128x128 S1048576x128 where
  lhsContracting := [1]
  rhsContracting := [0]
  lhsNonContracting := [0]
  rhsNonContracting := [1]
  lhsBatch := []
  rhsBatch := []
  wf := dot_S1048576x128_S128x128_S1048576x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

class Facts : Prop extends Facts₀ where

variable [Facts]
-- ==== Proof.Spec.lean ====
/-
  What both programs compute, as one function of the six argument arrays.

  With `N = 1024` nodes and `H = 128` features, edge `r = i·N + j` joins nodes `i` and `j`. Its output row is
      out[r, h] = max( (Σₖ edge[r, k]·We[h, k] + be[h]) + ⟨f_i, f_j⟩ , 0 ),
  where `f_i[h'] = Σₖ node[i, k]·Wi[h', k]` and `f_j[h'] = Σₖ node[j, k]·Wj[h', k]` are the two node projections
  and `⟨f_i, f_j⟩ = Σₕ' f_i[h']·f_j[h']` is one number per edge, added to every feature of the edge's row.
  Everything is read on the extended reals; the grouping `(linear + bias) + pair term` is the one both programs use,
  so no law of arithmetic is needed to join them — only the order of summation inside each finite sum, which is
  immaterial.
-/
import Idealize.ShloMosaic.PureOps.Ideal
import Idealize.ShloMosaic.Lib.ValueIdx

noncomputable section

namespace Cert.EdgeScore

open Idealize.ShloMosaic Idealize.ShloMosaic.ValueIdx

/-- A node-level projection `x @ W.T`: row `i` of the node features against row `h` of the weight. -/
def nodeProj (x : (⟨2, ![1024, 128]⟩ : Shape).Idx → EReal) (W : (⟨2, ![128, 128]⟩ : Shape).Idx → EReal)
    (i : Fin 1024) (h : Fin 128) : EReal :=
  ∑ k : Fin 128, x (ix2 i k) * W (ix2 h k)

/-- The pair term of nodes `i` and `j`: the inner product of their two projections. -/
def pairDot (x : (⟨2, ![1024, 128]⟩ : Shape).Idx → EReal) (Wi Wj : (⟨2, ![128, 128]⟩ : Shape).Idx → EReal)
    (i j : Fin 1024) : EReal :=
  ∑ h : Fin 128, nodeProj x Wi i h * nodeProj x Wj j h

/-- The edge-level linear map with its bias: row `r` of the edge features against row `h` of the weight, plus `be[h]`. -/
def edgeLin (e : (⟨2, ![1048576, 128]⟩ : Shape).Idx → EReal) (We : (⟨2, ![128, 128]⟩ : Shape).Idx → EReal)
    (be : (⟨1, ![128]⟩ : Shape).Idx → EReal) (r : Fin 1048576) (h : Fin 128) : EReal :=
  (∑ k : Fin 128, e (ix2 r k) * We (ix2 h k)) + be (ix1 h)

/-- The source node of edge `r`. -/
def srcOf (r : Fin 1048576) : Fin 1024 := ⟨r.val / 1024, by have := r.isLt; omega⟩
/-- The target node of edge `r`. -/
def dstOf (r : Fin 1048576) : Fin 1024 := ⟨r.val % 1024, by omega⟩

/-- The result, entry by entry, over edge `r` and feature `h`. -/
def score (x : (⟨2, ![1024, 128]⟩ : Shape).Idx → EReal) (e : (⟨2, ![1048576, 128]⟩ : Shape).Idx → EReal)
    (We : (⟨2, ![128, 128]⟩ : Shape).Idx → EReal) (be : (⟨1, ![128]⟩ : Shape).Idx → EReal)
    (Wi Wj : (⟨2, ![128, 128]⟩ : Shape).Idx → EReal) (r : Fin 1048576) (h : Fin 128) : EReal :=
  max (edgeLin e We be r h + pairDot x Wi Wj (srcOf r) (dstOf r)) 0

/-- The result array. -/
def G (x : (⟨2, ![1024, 128]⟩ : Shape).Idx → EReal) (e : (⟨2, ![1048576, 128]⟩ : Shape).Idx → EReal)
    (We : (⟨2, ![128, 128]⟩ : Shape).Idx → EReal) (be : (⟨1, ![128]⟩ : Shape).Idx → EReal)
    (Wi Wj : (⟨2, ![128, 128]⟩ : Shape).Idx → EReal) : (⟨2, ![1048576, 128]⟩ : Shape).Idx → EReal :=
  fun i => score x e We be Wi Wj (i 0) (i 1)

theorem G_ix2 (x : (⟨2, ![1024, 128]⟩ : Shape).Idx → EReal) (e : (⟨2, ![1048576, 128]⟩ : Shape).Idx → EReal)
    (We : (⟨2, ![128, 128]⟩ : Shape).Idx → EReal) (be : (⟨1, ![128]⟩ : Shape).Idx → EReal)
    (Wi Wj : (⟨2, ![128, 128]⟩ : Shape).Idx → EReal) (r : Fin 1048576) (h : Fin 128) :
    G x e We be Wi Wj (ix2 r h) = score x e We be Wi Wj r h := rfl

end Cert.EdgeScore

end
-- ==== Proof.RefScore.lean ====
/-
  The reference's result is the score array.

  The reference computes the edge-level linear map with its bias over all `N²` rows at once, the two node projections,
  their `N × N` table of inner products, flattens that table to one number per edge, adds it to every feature of the
  edge's row, and clamps below at zero. Read at edge `r` and feature `h`, each stage is the corresponding piece of
  `Cert.EdgeScore.score`: the flattening sends edge `r` to the table entry `(r / N, r % N)`.
-/
import proofs.«141986_j23983097381473_1_alg».proof.Proof.Gen.ReferenceIdeal.Read
import proofs.«141986_j23983097381473_1_alg».proof.Proof.Spec

noncomputable section

namespace Cert.EdgeScore.Ref

open Cert.ReferenceIdeal Cert.ReferenceIdeal.Read Idealize.ShloMosaic Idealize.ShloMosaic.ValueIdx

/-! ### The reference's index maps, on coordinates -/

theorem lhs_edge (r : Fin 1048576) (h k : Fin 128) : lidx_main_v1 (ix2 r h) k = ix2 r k :=
  funext fun a => Fin.ext (by match a with | ⟨0, _⟩ => rfl | ⟨1, _⟩ => rfl)

theorem rhs_edge (r : Fin 1048576) (h k : Fin 128) : idx_main_v0 (ridx_main_v1 (ix2 r h) k) = ix2 h k :=
  funext fun a => Fin.ext (by match a with | ⟨0, _⟩ => rfl | ⟨1, _⟩ => rfl)

theorem bias_idx (r : Fin 1048576) (h : Fin 128) : idx_main_v2 (idx_main_v3 (ix2 r h)) = ix1 h :=
  funext fun a => Fin.ext (by match a with | ⟨0, _⟩ => rfl)

/-- Edge `r`'s entry of the flattened table is the table's entry at its two nodes. -/
theorem pair_idx (r : Fin 1048576) (h : Fin 128) :
    idx_main_v10 (idx_main_v11 (ix2 r h)) = ix2 (srcOf r) (dstOf r) :=
  funext fun a => Fin.ext (by
    match a with
    | ⟨0, _⟩ => show (r.val * 1 + 0) / 1024 = r.val / 1024; rw [Nat.mul_one, Nat.add_zero]
    | ⟨1, _⟩ => show (r.val * 1 + 0) % 1024 = r.val % 1024; rw [Nat.mul_one, Nat.add_zero])

theorem lhs_pair (s d : Fin 1024) (k : Fin 128) : lidx_main_v9 (ix2 s d) k = ix2 s k :=
  funext fun a => Fin.ext (by match a with | ⟨0, _⟩ => rfl | ⟨1, _⟩ => rfl)

theorem rhs_pair (s d : Fin 1024) (k : Fin 128) : ridx_main_v9 (ix2 s d) k = ix2 d k :=
  funext fun a => Fin.ext (by match a with | ⟨0, _⟩ => rfl | ⟨1, _⟩ => rfl)

theorem lhs_src (s : Fin 1024) (h k : Fin 128) : lidx_main_v6 (ix2 s h) k = ix2 s k :=
  funext fun a => Fin.ext (by match a with | ⟨0, _⟩ => rfl | ⟨1, _⟩ => rfl)

theorem rhs_src (s : Fin 1024) (h k : Fin 128) : idx_main_v5 (ridx_main_v6 (ix2 s h) k) = ix2 h k :=
  funext fun a => Fin.ext (by match a with | ⟨0, _⟩ => rfl | ⟨1, _⟩ => rfl)

theorem lhs_dst (d : Fin 1024) (h k : Fin 128) : lidx_main_v8 (ix2 d h) k = ix2 d k :=
  funext fun a => Fin.ext (by match a with | ⟨0, _⟩ => rfl | ⟨1, _⟩ => rfl)

theorem rhs_dst (d : Fin 1024) (h k : Fin 128) : idx_main_v7 (ridx_main_v8 (ix2 d h) k) = ix2 h k :=
  funext fun a => Fin.ext (by match a with | ⟨0, _⟩ => rfl | ⟨1, _⟩ => rfl)

/-! ### The stages -/

/-- The source projection `node @ Wi.T`. -/
theorem src_proj (x0 : S1024x128.Idx → EReal) (x4 : S128x128.Idx → EReal) (s : Fin 1024) (h : Fin 128) :
    val_main_v6 (F := Ideal) x0 x4 (ix2 s h) = nodeProj x0 x4 s h := by
  rw [val_main_v6_apply]
  unfold nodeProj
  refine Finset.sum_congr rfl fun k _ => ?_
  rw [val_main_v5_apply, lhs_src, rhs_src]

/-- The target projection `node @ Wj.T`. -/
theorem dst_proj (x0 : S1024x128.Idx → EReal) (x5 : S128x128.Idx → EReal) (d : Fin 1024) (h : Fin 128) :
    val_main_v8 (F := Ideal) x0 x5 (ix2 d h) = nodeProj x0 x5 d h := by
  rw [val_main_v8_apply]
  unfold nodeProj
  refine Finset.sum_congr rfl fun k _ => ?_
  rw [val_main_v7_apply, lhs_dst, rhs_dst]

/-- The table of inner products. -/
theorem pair_table (x0 : S1024x128.Idx → EReal) (x4 x5 : S128x128.Idx → EReal) (s d : Fin 1024) :
    val_main_v9 (F := Ideal) x0 x4 x5 (ix2 s d) = pairDot x0 x4 x5 s d := by
  rw [val_main_v9_apply]
  unfold pairDot
  refine Finset.sum_congr rfl fun k _ => ?_
  rw [lhs_pair, rhs_pair, src_proj, dst_proj]

/-- The edge-level linear map with its bias. -/
theorem edge_lin (x1 : S1048576x128.Idx → EReal) (x2 : S128x128.Idx → EReal) (x3 : S128.Idx → EReal)
    (r : Fin 1048576) (h : Fin 128) :
    val_main_v4 (F := Ideal) x1 x2 x3 (ix2 r h) = edgeLin x1 x2 x3 r h := by
  rw [val_main_v4_apply, val_main_v1_apply, val_main_v3_apply, val_main_v2_apply, bias_idx]
  unfold edgeLin
  refine congrArg (· + x3 (ix1 h)) (Finset.sum_congr rfl fun k _ => ?_)
  rw [val_main_v0_apply, lhs_edge, rhs_edge]

/-- THE REFERENCE'S RESULT is the score array. -/
theorem result_eq (x0 : S1024x128.Idx → EReal) (x1 : S1048576x128.Idx → EReal) (x2 : S128x128.Idx → EReal)
    (x3 : S128.Idx → EReal) (x4 x5 : S128x128.Idx → EReal) :
    val_main_v13 (F := Ideal) x0 x1 x2 x3 x4 x5 = G x0 x1 x2 x3 x4 x5 := by
  funext i
  obtain ⟨r, h, rfl⟩ : ∃ (r : Fin 1048576) (h : Fin 128), i = ix2 r h := ⟨i 0, i 1, eq_ix2 i⟩
  rw [G_ix2, val_main_v13_apply, val_main_v12_apply, edge_lin, val_main_v11_apply, val_main_v10_apply, pair_idx,
    pair_table, val_main_call0_v0_apply, val_main_call0_cst_apply]
  unfold score
  show max _ (Ideal.ofBits .f32 0x00000000#32) = _
  rw [Ideal.ofBits_zero_f32]
  rfl

end Cert.EdgeScore.Ref

end
-- ==== Proof.KernelArrays.lean ====
/-
  The arrays the kernel region finds, as functions of the six arguments.

  Before the region the program computes, on the host: the `N × N` table of pair terms (two node projections, one of
  them transposed, contracted over the feature axis); the edge weight transposed, so that the region's matrix product
  contracts its ROW index; the bias as a one-row matrix; and the edge features viewed as `N × N × H`, edge
  `r = i·N + j` at `(i, j)`. Each is read here at an index given by coordinates, at the extended reals, where a
  contraction over one axis of extent `H` is the plain sum over `k : Fin H` of the products.
-/
import proofs.«141986_j23983097381473_1_alg».proof.Proof.Gen.KernelIdeal.Frame
import proofs.«141986_j23983097381473_1_alg».proof.Proof.Spec
import Idealize.ShloMosaic.Lib.StableHlo.Run
import Idealize.ShloMosaic.Lib.ValueLayout
import Idealize.ShloMosaic.PureOps.Ideal.Laws

noncomputable section

namespace Cert.EdgeScore.Kernel

open Cert.KernelIdeal Cert.KernelIdeal.Gen Idealize.ShloMosaic Idealize.ShloMosaic.TcCoe Idealize.SL.Sem
open Idealize.ShloMosaic.StableHlo Idealize.ShloMosaic.ValueIdx

/-! ## The two contractions: rows × features against features × columns -/

theorem lhsH_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhsH_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhsH_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhsH_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- A `[1024, 128] × [128, 128]` contraction at `(i, h)`: the sum over `k` of `l[i, k] · r[k, h]`. -/
theorem contractH (l : S1024x128.Idx → EReal) (r : S128x128.Idx → EReal) (i : Fin 1024) (h : Fin 128) :
    (∑ q : dot_S1024x128_S128x128_S1024x128_1_0_0_1_n_n.contr.Idx,
        l (dot_S1024x128_S128x128_S1024x128_1_0_0_1_n_n.lhsIdx (ix2 i h) q) * r (dot_S1024x128_S128x128_S1024x128_1_0_0_1_n_n.rhsIdx (ix2 i h) q))
      = ∑ k : Fin 128, l (ix2 i k) * r (ix2 k h) := by
  rw [← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 i h) ((ValueIdx.contrEquiv1 dot_S1024x128_S128x128_S1024x128_1_0_0_1_n_n 128 rfl rfl).symm k) = ix2 i k := funext fun a => Fin.ext (by
    match a with
    | ⟨0, _⟩ => exact lhsH_0 _ _
    | ⟨1, _⟩ => exact (lhsH_1 _ _).trans hk)
  have er : dot_S1024x128_S128x128_S1024x128_1_0_0_1_n_n.rhsIdx (ix2 i h) ((ValueIdx.contrEquiv1 dot_S1024x128_S128x128_S1024x128_1_0_0_1_n_n 128 rfl rfl).symm k) = ix2 k h := funext fun a => Fin.ext (by
    match a with
    | ⟨0, _⟩ => exact (rhsH_0 _ _).trans hk
    | ⟨1, _⟩ => exact rhsH_1 _ _)
  rw [el, er]

theorem lhsN_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhsN_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
theorem rhsN_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
theorem rhsN_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- A `[1024, 128] × [128, 1024]` contraction at `(s, d)`: the sum over `k` of `l[s, k] · r[k, d]`. -/
theorem contractN (l : S1024x128.Idx → EReal) (r : S128x1024.Idx → EReal) (s d : Fin 1024) :
    (∑ q : dot_S1024x128_S128x1024_S1024x1024_1_0_0_1_n_n.contr.Idx,
        l (dot_S1024x128_S128x1024_S1024x1024_1_0_0_1_n_n.lhsIdx (ix2 s d) q) * r (dot_S1024x128_S128x1024_S1024x1024_1_0_0_1_n_n.rhsIdx (ix2 s d) q))
      = ∑ k : Fin 128, l (ix2 s k) * r (ix2 k d) := by
  rw [← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 s d) ((ValueIdx.contrEquiv1 dot_S1024x128_S128x1024_S1024x1024_1_0_0_1_n_n 128 rfl rfl).symm k) = ix2 s k := funext fun a => Fin.ext (by
    match a with
    | ⟨0, _⟩ => exact lhsN_0 _ _
    | ⟨1, _⟩ => exact (lhsN_1 _ _).trans hk)
  have er : dot_S1024x128_S128x1024_S1024x1024_1_0_0_1_n_n.rhsIdx (ix2 s d) ((ValueIdx.contrEquiv1 dot_S1024x128_S128x1024_S1024x1024_1_0_0_1_n_n 128 rfl rfl).symm k) = ix2 k d := funext fun a => Fin.ext (by
    match a with
    | ⟨0, _⟩ => exact (rhsN_0 _ _).trans hk
    | ⟨1, _⟩ => exact rhsN_1 _ _)
  rw [el, er]

/-- The host's contraction over the feature axis, at `(i, h)`. -/
theorem hostDotH_apply (l : FVec Ideal S1024x128 .f32) (r : FVec Ideal S128x128 .f32) (i : Fin 1024) (h : Fin 128) :
    Host.dotGeneral dot_S1024x128_S128x128_S1024x128_1_0_0_1_n_n (some .fp32) l r (ix2 i h) = ∑ k : Fin 128, l (ix2 i k) * r (ix2 k h) := by
  simp only [Host.dotGeneral]
  rw [Ideal.dotGeneral_apply]
  exact contractH l r i h

/-- The host's contraction of two node tables, at `(s, d)`. -/
theorem hostDotN_apply (l : FVec Ideal S1024x128 .f32) (r : FVec Ideal S128x1024 .f32) (s d : Fin 1024) :
    Host.dotGeneral dot_S1024x128_S128x1024_S1024x1024_1_0_0_1_n_n (some .fp32) l r (ix2 s d) = ∑ k : Fin 128, l (ix2 s k) * r (ix2 k d) := by
  simp only [Host.dotGeneral]
  rw [Ideal.dotGeneral_apply]
  exact contractN l r s d

/-- The region's matrix product into a zero accumulator, at `(j, h)`. -/
theorem matmulH_apply (l : FVec Ideal S1024x128 .bf16) (r : FVec Ideal S128x128 .bf16) (j : Fin 1024) (h : Fin 128) :
    matmul dot_S1024x128_S128x128_S1024x128_1_0_0_1_n_n none l r (constant S1024x128 .f32 0x00000000#32) (ix2 j h)
      = ∑ k : Fin 128, l (ix2 j k) * r (ix2 k h) := by
  simp only [matmul]
  rw [Ideal.matmul_constant_zero_apply]
  exact contractH l r j h

/-! ## The host lines before the region, as terms of the arguments -/

section Terms
variable {F : FTy → Type} [FloatOps F]

/-- The table of pair terms as the host computes it. -/
def pairTable (x0 : Vec F S1024x128 .f32) (x4 x5 : Vec F S128x128 .f32) : Vec F S1024x1024 .f32 :=
  Host.dotGeneral dot_S1024x128_S128x1024_S1024x1024_1_0_0_1_n_n (some .fp32)
    (Host.dotGeneral dot_S1024x128_S128x128_S1024x128_1_0_0_1_n_n (some .fp32) x0 (transpose S128x128 [1, 0] x4 transposes_S128x128_S128x128_1_0))
    (transpose S128x1024 [1, 0]
      (Host.dotGeneral dot_S1024x128_S128x128_S1024x128_1_0_0_1_n_n (some .fp32) x0 (transpose S128x128 [1, 0] x5 transposes_S128x128_S128x128_1_0))
      transposes_S1024x128_S128x1024_1_0)

variable (m : (ℓ : Loc nD τ sig) → Buf (Elt F) ℓ)

/-- The region finds the table of pair terms in its second operand's array. -/
theorem V_pairs (c : Dev nD) :
    V m c main_v5 = pairTable (m ((c : Thread nD τ).loc main_arg0)) (m ((c : Thread nD τ).loc main_arg4)) (m ((c : Thread nD τ).loc main_arg5)) := by
  show StableHlo.after hostOps0 (fun b => m (c, b)) (Proc.devRef .tc main_v5) = _
  after_results <;> rfl

/-- The edge weight, transposed. -/
theorem V_weight (c : Dev nD) :
    V m c main_v6 = transpose S128x128 [1, 0] (m ((c : Thread nD τ).loc main_arg2)) transposes_S128x128_S128x128_1_0 := by
  show StableHlo.after hostOps0 (fun b => m (c, b)) (Proc.devRef .tc main_v6) = _
  after_results <;> rfl

/-- The bias as a one-row matrix. -/
theorem V_bias (c : Dev nD) :
    V m c main_v7 = shapeCast S1x128 (m ((c : Thread nD τ).loc main_arg3)) shapeCasts_S128_S1x128 := by
  show StableHlo.after hostOps0 (fun b => m (c, b)) (Proc.devRef .tc main_v7) = _
  after_results <;> rfl

/-- The edge features viewed as `N × N × H`. -/
theorem V_edges (c : Dev nD) :
    V m c main_v8 = shapeCast S1024x1024x128 (m ((c : Thread nD τ).loc main_arg1)) shapeCasts_S1048576x128_S1024x1024x128 := by
  show StableHlo.after hostOps0 (fun b => m (c, b)) (Proc.devRef .tc main_v8) = _
  after_results <;> rfl

end Terms

/-! ## The same, read at an index on the extended reals -/

/-- The host's table at `(s, d)` is the pair term of nodes `s` and `d`. -/
theorem pairTable_apply (x0 : FVec Ideal S1024x128 .f32) (x4 x5 : FVec Ideal S128x128 .f32) (s d : Fin 1024) :
    pairTable (F := Ideal) x0 x4 x5 (ix2 s d) = pairDot x0 x4 x5 s d := by
  unfold pairTable pairDot
  rw [hostDotN_apply]
  refine Finset.sum_congr rfl fun k _ => ?_
  rw [transpose_ix2_apply, hostDotH_apply, hostDotH_apply]
  unfold nodeProj
  congr 1 <;> refine Finset.sum_congr rfl fun k' _ => ?_ <;> rw [transpose_ix2_apply]

/-- The transposed weight at `(k, h)` is the weight at `(h, k)`. -/
theorem weightT_apply (x2 : FVec Ideal S128x128 .f32) (k h : Fin 128) :
    transpose S128x128 [1, 0] x2 transposes_S128x128_S128x128_1_0 (ix2 k h) = x2 (ix2 h k) :=
  transpose_ix2_apply x2 _ k h

/-- The one-row bias at `(0, h)` is the bias at `h`. -/
theorem biasRow_apply (x3 : FVec Ideal S128 .f32) (u : Fin 1) (h : Fin 128) :
    shapeCast S1x128 x3 shapeCasts_S128_S1x128 (ix2 u h) = x3 (ix1 h) :=
  shapeCast_a_1a_apply x3 _ u h

/-- The edge cube at `(i, j, k)` is the edge matrix at row `i·N + j`. -/
theorem edgeCube_apply (x1 : FVec Ideal S1048576x128 .f32) (i j : Fin 1024) (k : Fin 128) (r : Fin 1048576)
    (hr : r.val = i.val * 1024 + j.val) :
    shapeCast S1024x1024x128 x1 shapeCasts_S1048576x128_S1024x1024x128 (ix3 i j k) = x1 (ix2 r k) :=
  shapeCast_apply x1 _ _ _ (by
    rw [Shape.rowMajor_val_three, Shape.rowMajor_val_two]
    show r.val * 128 + k.val = (i.val * 1024 + j.val) * 128 + k.val
    rw [hr])

end Cert.EdgeScore.Kernel

end
-- ==== Proof.LibColumnLayout.lean ====
/-
  A vector turned into a column, and a column spread over the lanes, read at an index given by coordinates.

  The layout lemmas of the value library cover a leading unit axis (a row `[1, b]` spread over `[a, b]`, a vector
  `[a]` seen as the row `[1, a]`). The two here are their mirror images for a TRAILING unit axis: a vector `[a]`
  seen as the column `[a, 1]`, and the column `[a, 1]` spread over `[a, b]`. Together they read
  `x[:, None]` broadcast against a matrix: entry `(p, c)` of the result is `x p`.
-/
import Idealize.ShloMosaic.Lib.ValueLayout

namespace Idealize.ShloMosaic.ValueIdx

open Idealize.ShloMosaic

variable {α : Type}

/-- An `[a]` array cast to the column `[a, 1]` reads, at `(i, u)`, the operand at `i`, whatever the unit
    coordinate `u`: both indices sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the unit axis
    is read at `0`, the row axis at `p` (when `a = 1` the row axis is a unit axis too, and `p = 0`). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two composed: `x[:, None]` spread over `[a, b]` is `x p` at `(p, c)`. -/
theorem broadcastTo_column_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) := by
  rw [broadcastTo_a1_ab_apply, shapeCast_a_a1_apply]

end Idealize.ShloMosaic.ValueIdx
-- ==== Proof.KernelRow.lean ====
/-
  One store of the kernel body, read at an index.

  The body handles the eight source nodes of its block one after the other, each time with the same arithmetic on
  that node's `N × H` slab of edge features `e` and its row `d` of pair terms:
      row[j, h] = max( (Σₖ e[j, k]·w[k, h] + b[h]) + d[j] , 0 ),
  with `w` the transposed edge weight and `b` the bias row, both loaded once. The narrowing of `e` and `w` to
  bf16 before the matrix product is the identity on the extended reals. The eight stores name the same function
  eight times; it is read once, on the first of the names, and the others are that one by unfolding.
-/
import proofs.«141986_j23983097381473_1_alg».proof.Proof.KernelArrays
import proofs.«141986_j23983097381473_1_alg».proof.Proof.LibColumnLayout

noncomputable section

namespace Cert.EdgeScore.Kernel

open Cert.KernelIdeal Cert.KernelIdeal.Gen Idealize.ShloMosaic Idealize.ShloMosaic.TcCoe Idealize.SL.Sem
open Idealize.ShloMosaic.ValueIdx

/-- The row function at `(j, h)`, its leading unit coordinate `u` whatever it is. -/
theorem row_apply (w : FVec Ideal S128x128 .bf16) (b : FVec Ideal S1x128 .f32) (e : Vec Ideal S1x1024x128 .f32)
    (d : Vec Ideal S1x1024 .f32) (u : Fin 1) (j : Fin 1024) (h : Fin 128) :
    k0_pay1 w b e d (ix3 u j h)
      = max (((∑ k : Fin 128, e (ix3 (0 : Fin 1) j k) * w (ix2 k h)) + b (ix2 (0 : Fin 1) h)) + d (ix2 (0 : Fin 1) j)) 0 := by
  unfold k0_pay1
  refine (shapeCast_ab_1ab_apply _ _ u j h).trans ?_
  refine (maximumf_apply _ _ _).trans ?_
  refine congrArg₂ max ?_ (show broadcast S1024x128 (Scalar.ofBits (F := Ideal) .f32 0x00000000#32) (ix2 j h) = (0 : EReal) from Ideal.ofBits_zero_f32)
  refine (addf_apply _ _ _).trans (congrArg₂ (· + ·) ?_ ?_)
  · refine (addf_apply _ _ _).trans (congrArg₂ (· + ·) ?_ ?_)
    · refine (matmulH_apply _ _ j h).trans (Finset.sum_congr rfl fun k _ => ?_)
      exact congrArg (· * w (ix2 k h)) ((truncf_apply (ψ := .bf16) _ bitsLt_bf16_f32 _).trans (shapeCast_1ab_ab_apply e _ j k))
    · exact broadcastTo_1b_ab_apply b _ j h
  · exact (broadcastTo_column_apply _ _ _ j h).trans (shapeCast_1a_a_apply d _ j)

section Names
variable {F : FTy → Type} [FloatOps F]

/-- The eight stores' payloads are one function. -/
theorem pay2_eq : @k0_pay2 F _ = k0_pay1 := rfl
theorem pay8_eq : @k0_pay8 F _ = k0_pay1 := rfl
theorem pay11_eq : @k0_pay11 F _ = k0_pay1 := rfl
theorem pay12_eq : @k0_pay12 F _ = k0_pay1 := rfl
theorem pay5_eq (v0 : Vec F S128x128 .f32) (v3 : Vec F S1x128 .f32) (e : Vec F S1x1024x128 .f32) (d : Vec F S1x1024 .f32) :
    k0_pay5 v0 v3 e d = k0_pay1 (k0_pay3 v0) (k0_pay4 v3) e d := rfl
theorem pay7_eq (v0 : Vec F S128x128 .f32) (v3 : Vec F S1x128 .f32) (e : Vec F S1x1024x128 .f32) (d : Vec F S1x1024 .f32) :
    k0_pay7 (k0_pay6 v0 v3 e d) = k0_pay1 (k0_pay3 v0) (k0_pay4 v3) e d := rfl
theorem pay10_eq (w : FVec F S128x128 .bf16) (b : FVec F S1x128 .f32) (e : Vec F S1x1024x128 .f32) (d : Vec F S1x1024 .f32) :
    k0_pay10 (k0_pay9 w b e d) = k0_pay1 w b e d := rfl

end Names

/-- The weight as the body holds it: narrowed, which on the extended reals changes nothing. -/
theorem weight_held (x2 : Vec Ideal S128x128 .f32) : k0_pay3 x2 = x2 := by
  funext i
  unfold k0_pay3
  exact (truncf_apply (ψ := .bf16) _ bitsLt_bf16_f32 _).trans (congrFun (shapeCast_self x2 _) i)

/-- The bias row as the body holds it. -/
theorem bias_held (x3 : Vec Ideal S1x128 .f32) : k0_pay4 x3 = x3 := by
  unfold k0_pay4
  exact shapeCast_self x3 _

end Cert.EdgeScore.Kernel

end
-- ==== Proof.KernelBlock.lean ====
/-
  From one grid point's block to the whole result.

  Grid point `t` holds source nodes `8t … 8t + 7`: its blocks are rows `8t … 8t + 7` of the edge cube and of the
  table of pair terms, the whole transposed weight and the whole bias row. The eight stores of the body tile the
  output block, store `a` writing the row function of source node `8t + a`; so the block, index by index, is
  ONE formula in the block's coordinates (`blockScore`), and that formula is the restriction to the block of the same
  formula over the whole arrays (`cubeScore`). The 128 output blocks tile the `N × N × H` result, which therefore ends
  at `cubeScore` of the arrays the region found; through the host lines before the region that is the score of edge
  `i·N + j` at `(i, j, h)`, and the closing reshape lists the edges in that order.
-/
import proofs.«141986_j23983097381473_1_alg».proof.Proof.KernelRow
import Idealize.ShloMosaic.Lib.Pipeline.Value

noncomputable section

namespace Cert.EdgeScore.Kernel

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

theorem hz2 : (![0, 0] : Fin 2 → Nat) = fun _ => 0 := funext fun a => by fin_cases a <;> rfl

/-! ## The block -/

/-- The body's result over a block of eight source nodes. -/
def blockScore (E : Vec Ideal S8x1024x128 .f32) (D : Vec Ideal S8x1024 .f32) (W : Vec Ideal S128x128 .f32)
    (B : Vec Ideal S1x128 .f32) : Vec Ideal S8x1024x128 .f32 :=
  fun y => max (((∑ k : Fin 128, E (ix3 (y 0) (y 1) k) * W (ix2 k (y 2))) + B (ix2 (0 : Fin 1) (y 2))) + D (ix2 (y 0) (y 1))) 0

/-- The same formula over all source nodes. -/
def cubeScore (E : Vec Ideal S1024x1024x128 .f32) (D : Vec Ideal S1024x1024 .f32) (W : Vec Ideal S128x128 .f32)
    (B : Vec Ideal S1x128 .f32) : Vec Ideal S1024x1024x128 .f32 :=
  fun y => max (((∑ k : Fin 128, E (ix3 (y 0) (y 1) k) * W (ix2 k (y 2))) + B (ix2 (0 : Fin 1) (y 2))) + D (ix2 (y 0) (y 1))) 0

theorem blockScore_ix3 (E : Vec Ideal S8x1024x128 .f32) (D : Vec Ideal S8x1024 .f32) (W : Vec Ideal S128x128 .f32)
    (B : Vec Ideal S1x128 .f32) (p : Fin 8) (q : Fin 1024) (h : Fin 128) :
    blockScore E D W B (ix3 p q h)
      = max (((∑ k : Fin 128, E (ix3 p q k) * W (ix2 k h)) + B (ix2 (0 : Fin 1) h)) + D (ix2 p q)) 0 := rfl

theorem cubeScore_ix3 (E : Vec Ideal S1024x1024x128 .f32) (D : Vec Ideal S1024x1024 .f32) (W : Vec Ideal S128x128 .f32)
    (B : Vec Ideal S1x128 .f32) (p q : Fin 1024) (h : Fin 128) :
    cubeScore E D W B (ix3 p q h)
      = max (((∑ k : Fin 128, E (ix3 p q k) * W (ix2 k h)) + B (ix2 (0 : Fin 1) h)) + D (ix2 p q)) 0 := rfl

/-- Store `a` of the body: the row function of the block's source node `a`, which is `blockScore` on that node's
    rectangle of the block. -/
theorem piece_row (a : Nat) (ha : a < 8)
    (inb0 : ∀ ax, (![a, 0, 0] : Fin 3 → Nat) ax + S1x1024x128.size ax ≤ S8x1024x128.size ax)
    (inb1 : ∀ ax, (![a, 0] : Fin 2 → Nat) ax + S1x1024.size ax ≤ S8x1024.size ax)
    (x0 : Vec Ideal S8x1024x128 .f32) (x1 : Vec Ideal S8x1024 .f32) (x2 : Vec Ideal S128x128 .f32) (x3 : Vec Ideal S1x128 .f32)
    (x : S1x1024x128.Idx) :
    k0_pay1 (k0_pay3 (View.ld x2 r0_0)) (k0_pay4 (View.ld x3 r0_1))
        (View.ld x0 (Rect.unit (s := S8x1024x128) ![a, 0, 0] S1x1024x128.size inb0))
        (View.ld x1 (Rect.unit (s := S8x1024) ![a, 0] S1x1024.size inb1)) x
      = blockScore x0 x1 x2 x3 ((Rect.unit (s := S8x1024x128) ![a, 0, 0] S1x1024x128.size inb0).emb x) := by
  obtain ⟨u, j, h, rfl⟩ : ∃ (u : Fin 1) (j : Fin 1024) (h : Fin 128), x = ix3 u j h := ⟨x 0, x 1, x 2, eq_ix3 x⟩
  have e3 : ∀ k : Fin 128, (Rect.unit (s := S8x1024x128) ![a, 0, 0] S1x1024x128.size inb0).emb (ix3 u j k) = ix3 (⟨a, ha⟩ : Fin 8) j k :=
    fun k => funext fun ax => Fin.ext (by
      have hu : u.val = 0 := by omega
      match ax with
      | ⟨0, _⟩ => show a + 1 * u.val = a; omega
      | ⟨1, _⟩ => show 0 + 1 * j.val = j.val; omega
      | ⟨2, _⟩ => show 0 + 1 * k.val = k.val; omega)
  have e3' : ∀ k : Fin 128, (Rect.unit (s := S8x1024x128) ![a, 0, 0] S1x1024x128.size inb0).idx (ix3 (0 : Fin 1) j k) = ix3 (⟨a, ha⟩ : Fin 8) j k :=
    fun k => funext fun ax => Fin.ext (by
      match ax with
      | ⟨0, _⟩ => show a + 1 * 0 = a; omega
      | ⟨1, _⟩ => show 0 + 1 * j.val = j.val; omega
      | ⟨2, _⟩ => show 0 + 1 * k.val = k.val; omega)
  have e2 : (Rect.unit (s := S8x1024) ![a, 0] S1x1024.size inb1).idx (ix2 (0 : Fin 1) j) = ix2 (⟨a, ha⟩ : Fin 8) j :=
    funext fun ax => Fin.ext (by
      match ax with
      | ⟨0, _⟩ => show a + 1 * 0 = a; omega
      | ⟨1, _⟩ => show 0 + 1 * j.val = j.val; omega)
  rw [e3 h, blockScore_ix3]
  refine (row_apply _ _ _ _ u j h).trans ?_
  rw [weight_held, bias_held, View.ld_unit_zero (S := S128x128) hz2, View.ld_unit_zero (S := S1x128) hz2]
  refine congrArg₂ max (congrArg₂ (· + ·) (congrArg₂ (· + ·) (Finset.sum_congr rfl fun k _ => ?_) rfl) ?_) rfl
  · exact congrArg (· * x2 (ix2 k h)) (congrArg x0 (e3' k))
  · exact congrArg x1 e2

/-- What the body leaves in the output block: `blockScore` of the four input blocks. -/
theorem out_block (x0 : Vec Ideal S8x1024x128 .f32) (x1 : Vec Ideal S8x1024 .f32) (x2 : Vec Ideal S128x128 .f32)
    (x3 : Vec Ideal S1x128 .f32) : out0_4 (F := Ideal) x0 x1 x2 x3 = blockScore x0 x1 x2 x3 := by
  funext y
  unfold out0_4
  simp only [pay2_eq, pay8_eq, pay11_eq, pay12_eq, pay5_eq, pay7_eq, pay10_eq]
  refine View.canon_apply_of_pieces (blockScore x0 x1 x2 x3) _ (fun p hp => ?_) y (cover0_4 _ _ _ _ _ _ _ _ y)
  simp only [List.mem_cons, List.mem_nil_iff, or_false] at hp
  rcases hp with rfl | rfl | rfl | rfl | rfl | rfl | rfl | rfl
  · exact fun x => piece_row 7 (by decide) _ _ x0 x1 x2 x3 x
  · exact fun x => piece_row 6 (by decide) _ _ x0 x1 x2 x3 x
  · exact fun x => piece_row 5 (by decide) _ _ x0 x1 x2 x3 x
  · exact fun x => piece_row 4 (by decide) _ _ x0 x1 x2 x3 x
  · exact fun x => piece_row 3 (by decide) _ _ x0 x1 x2 x3 x
  · exact fun x => piece_row 2 (by decide) _ _ x0 x1 x2 x3 x
  · exact fun x => piece_row 1 (by decide) _ _ x0 x1 x2 x3 x
  · exact fun x => piece_row 0 (by decide) _ _ x0 x1 x2 x3 x

end Cert.EdgeScore.Kernel

end
-- ==== Proof.KernelResult.lean ====
/-
  The kernel's result array.

  Grid point `t` reads rows `8t … 8t + 7` of the edge cube and of the table of pair terms, and writes rows
  `8t … 8t + 7` of the result; the weight and the bias row it reads whole. So what it writes back is the block of
  `cubeScore` over the arrays the region found; the 128 blocks tile the result; and the closing reshape of the
  `N × N × H` result to `N² × H` sends edge `r` to entry `(r / N, r % N)`, whose value is the score of edge `r`.
-/
import proofs.«141986_j23983097381473_1_alg».proof.Proof.KernelBlock

set_option maxRecDepth 16384

noncomputable section

namespace Cert.EdgeScore.Kernel

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## Which rows a grid point holds -/

/-- The index maps over the grid: the two streamed inputs and the output move with the point along the source-node
    axis; the weight and the bias row stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The edge block at point `t`: source nodes `8t + p`. -/
theorem edge_blk (c : Dev nD) (t : Fin cfg0.N) (p : Fin 8) (q : Fin 1024) (k : Fin 128) (P : Fin 1024)
    (hP : P.val = t.val * 8 + p.val) :
    (iblk m c 0 t : Vec Ideal S8x1024x128 .f32) (ix3 p q k) = (V m c main_v8 : Vec Ideal S1024x1024x128 .f32) (ix3 P q k) := by
  obtain ⟨a0, a1, a2, -⟩ := idx_facts t
  show (V m c main_v8 : Vec Ideal S1024x1024x128 .f32) (((cfg0.win 0).blk t).view.emb (ix3 p q k)) = _
  refine congrArg _ (funext fun ax => Fin.ext ?_)
  match ax with
  | ⟨0, _⟩ => show win0_0.index t (0 : Fin 3) * 8 + 1 * p.val = P.val; rw [a0, hP]; omega
  | ⟨1, _⟩ => show win0_0.index t (1 : Fin 3) * 1024 + 1 * q.val = q.val; rw [a1]; omega
  | ⟨2, _⟩ => show win0_0.index t (2 : Fin 3) * 128 + 1 * k.val = k.val; rw [a2]; omega

/-- The block of pair terms at point `t`. -/
theorem pair_blk (c : Dev nD) (t : Fin cfg0.N) (p : Fin 8) (q : Fin 1024) (P : Fin 1024)
    (hP : P.val = t.val * 8 + p.val) :
    (iblk m c 1 t : Vec Ideal S8x1024 .f32) (ix2 p q) = (V m c main_v5 : Vec Ideal S1024x1024 .f32) (ix2 P q) := by
  obtain ⟨-, -, -, b0, b1, -⟩ := idx_facts t
  show (V m c main_v5 : Vec Ideal S1024x1024 .f32) (((cfg0.win 1).blk t).view.emb (ix2 p q)) = _
  refine congrArg _ (funext fun ax => Fin.ext ?_)
  match ax with
  | ⟨0, _⟩ => show win0_1.index t (0 : Fin 2) * 8 + 1 * p.val = P.val; rw [b0, hP]; omega
  | ⟨1, _⟩ => show win0_1.index t (1 : Fin 2) * 1024 + 1 * q.val = q.val; rw [b1]; omega

/-- The weight block is the whole transposed weight. -/
theorem weight_blk (c : Dev nD) (t : Fin cfg0.N) (k h : Fin 128) :
    (iblk m c 2 t : Vec Ideal S128x128 .f32) (ix2 k h) = (V m c main_v6 : Vec Ideal S128x128 .f32) (ix2 k h) := by
  obtain ⟨-, -, -, -, -, c0, c1, -⟩ := idx_facts t
  show (V m c main_v6 : Vec Ideal S128x128 .f32) (((cfg0.win 2).blk t).view.emb (ix2 k h)) = _
  refine congrArg _ (funext fun ax => Fin.ext ?_)
  match ax with
  | ⟨0, _⟩ => show win0_2.index t (0 : Fin 2) * 128 + 1 * k.val = k.val; rw [c0]; omega
  | ⟨1, _⟩ => show win0_2.index t (1 : Fin 2) * 128 + 1 * h.val = h.val; rw [c1]; omega

/-- The bias block is the whole bias row. -/
theorem bias_blk (c : Dev nD) (t : Fin cfg0.N) (u : Fin 1) (h : Fin 128) :
    (iblk m c 3 t : Vec Ideal S1x128 .f32) (ix2 u h) = (V m c main_v7 : Vec Ideal S1x128 .f32) (ix2 u h) := by
  obtain ⟨-, -, -, -, -, -, -, d0, d1, -⟩ := idx_facts t
  show (V m c main_v7 : Vec Ideal S1x128 .f32) (((cfg0.win 3).blk t).view.emb (ix2 u h)) = _
  refine congrArg _ (funext fun ax => Fin.ext ?_)
  match ax with
  | ⟨0, _⟩ => show win0_3.index t (0 : Fin 2) * 1 + 1 * u.val = u.val; rw [d0]; omega
  | ⟨1, _⟩ => show win0_3.index t (1 : Fin 2) * 128 + 1 * h.val = h.val; rw [d1]; omega

/-! ## What a grid point writes back -/

/-- The result cube, over the arrays as the region finds them. -/
abbrev cube (c : Dev nD) : Vec Ideal S1024x1024x128 .f32 :=
  cubeScore (V m c main_v8) (V m c main_v5) (V m c main_v6) (V m c main_v7)

/-- `blockScore` of point `t`'s input blocks at `y` is the cube at the array index `z` of `y` in block `t`. -/
theorem block_of_cube (c : Dev nD) (t : Fin cfg0.N) (y : S8x1024x128.Idx) (z : S1024x1024x128.Idx)
    (h0 : (z 0).val = t.val * 8 + (y 0).val) (h1 : (z 1).val = (y 1).val) (h2 : (z 2).val = (y 2).val) :
    blockScore (iblk m c 0 t) (iblk m c 1 t) (iblk m c 2 t) (iblk m c 3 t) y = cube m c z := by
  obtain ⟨p, q, h, rfl⟩ : ∃ (p : Fin 8) (q : Fin 1024) (h : Fin 128), y = ix3 p q h := ⟨y 0, y 1, y 2, eq_ix3 y⟩
  obtain ⟨P, Q, H, rfl⟩ : ∃ (P Q : Fin 1024) (H : Fin 128), z = ix3 P Q H := ⟨z 0, z 1, z 2, eq_ix3 z⟩
  obtain rfl : Q = q := Fin.ext h1
  obtain rfl : H = h := Fin.ext h2
  have hP : P.val = t.val * 8 + p.val := h0
  unfold cube
  rw [blockScore_ix3, cubeScore_ix3]
  exact congrArg₂ max (congrArg₂ (· + ·) (congrArg₂ (· + ·)
    (Finset.sum_congr rfl fun k _ => congrArg₂ (· * ·) (edge_blk m c t p Q k P hP) (weight_blk m c t k H))
    (bias_blk m c t 0 H)) (pair_blk m c t p Q P hP)) rfl

/-- WHAT POINT `t` WRITES BACK is block `t` of the cube. -/
theorem flushed_eq (c : Dev nD) (t : Fin cfg0.N) :
    (dats m 0 c).flushed 4 t = ((cfg0.win 4).blk t).view.read (Elt Ideal) (cube m c) := by
  show (cfg0.win 4).cut (grid0.coords t) ((dats m 0 c).after 4 t) = _
  rw [after0_4, out_block]
  obtain ⟨-, -, -, -, -, -, -, -, -, e0, e1, e2⟩ := idx_facts t
  funext y
  refine block_of_cube m c t y (((cfg0.win 4).blk t).view.emb y) ?_ ?_ ?_
  · show win0_4.index t (0 : Fin 3) * 8 + 1 * (y 0).val = t.val * 8 + (y 0).val; rw [e0]; omega
  · show win0_4.index t (1 : Fin 3) * 1024 + 1 * (y 1).val = (y 1).val; rw [e1]; omega
  · show win0_4.index t (2 : Fin 3) * 128 + 1 * (y 2).val = (y 2).val; rw [e2]; omega

/-! ## The blocks tile the result -/

theorem mem_blk (t : Fin cfg0.N) (i : S1024x1024x128.Idx) :
    i ∈ ((cfg0.win 4).blk t).view.set ↔ ∀ a : Fin 3, win0_4.index t a * S8x1024x128.size a ≤ (i a).val ∧ (i a).val < win0_4.index t a * S8x1024x128.size a + S8x1024x128.size a := by
  show i ∈ ((View.whole main_v9).slice (win0_4.rect t)).set ↔ _
  rw [View.set_slice_whole, Rect.mem_set_unit]
  exact Iff.rfl

/-- Source node `i` is in the block of point `i / 8`. -/
theorem cover (i : S1024x1024x128.Idx) :
    ∃ t : Fin cfg0.N, (cfg0.win 4).flush t = true ∧ i ∈ ((cfg0.win 4).blk t).view.set := by
  have hi0 : (i 0).val < 1024 := (i 0).isLt
  have hi1 : (i 1).val < 1024 := (i 1).isLt
  have hi2 : (i 2).val < 128 := (i 2).isLt
  have hN : cfg0.N = 128 := N_0
  obtain ⟨t, ht⟩ : ∃ t : Fin cfg0.N, t.val = (i 0).val / 8 := ⟨⟨(i 0).val / 8, by rw [hN]; omega⟩, rfl⟩
  obtain ⟨-, -, -, -, -, -, -, -, -, e0, e1, e2⟩ := idx_facts t
  refine ⟨t, flush0_4 t, ?_⟩
  rw [mem_blk]
  intro a
  match a with
  | ⟨0, _⟩ => show win0_4.index t (0 : Fin 3) * 8 ≤ (i 0).val ∧ (i 0).val < win0_4.index t (0 : Fin 3) * 8 + 8; rw [e0, ht]; omega
  | ⟨1, _⟩ => show win0_4.index t (1 : Fin 3) * 1024 ≤ (i 1).val ∧ (i 1).val < win0_4.index t (1 : Fin 3) * 1024 + 1024; rw [e1]; omega
  | ⟨2, _⟩ => show win0_4.index t (2 : Fin 3) * 128 ≤ (i 2).val ∧ (i 2).val < win0_4.index t (2 : Fin 3) * 128 + 128; rw [e2]; omega

/-- THE RESULT CUBE after the region. -/
theorem final_cube (c : Dev nD) : (dats m 0 c).arrAt 4 cfg0.N = cube m c :=
  (dats m 0 c).arrAt_eq_of_cover 4 (cube m c) (fun t _ => flushed_eq m c t) cover

/-! ## Through the host lines -/

/-- The cube at `(i, j, h)` is the score of edge `i·N + j`. -/
theorem cube_apply (c : Dev nD) (i j : Fin 1024) (h : Fin 128) (r : Fin 1048576) (hr : r.val = i.val * 1024 + j.val) :
    cube m c (ix3 i j h)
      = score (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) r h := by
  have hs : srcOf r = i := Fin.ext (by show r.val / 1024 = i.val; have := j.isLt; omega)
  have hd : dstOf r = j := Fin.ext (by show r.val % 1024 = j.val; have := j.isLt; omega)
  unfold cube
  rw [cubeScore_ix3, V_edges, V_pairs, V_weight, V_bias]
  unfold score edgeLin
  rw [hs, hd]
  refine congrArg₂ max (congrArg₂ (· + ·) (congrArg₂ (· + ·) (Finset.sum_congr rfl fun k _ => ?_) ?_) ?_) rfl
  · exact congrArg₂ (· * ·) (edgeCube_apply _ i j k r hr) (weightT_apply _ k h)
  · exact biasRow_apply _ 0 h
  · exact pairTable_apply _ _ _ i j

/-- THE RESULT: after the closing reshape, the score array. -/
theorem result_eq (c : Dev nD) :
    Pipeline.afterTail₀ cfgs (dats m) 0 (V0 m) [hostOps1] c main_v10
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have hw : Pipeline.withArrays spec0 c (V0 m c) (fun w => (dats m 0 c).arrAt w cfg0.N) (Proc.devRef .tc main_v9) = cube m c :=
    (Pipeline.withArrays_arr spec0 launch0.win.arr_inj c _ _ 4).trans (final_cube m c)
  unfold Pipeline.afterTail₀
  show StableHlo.after hostOps1 _ (Proc.devRef .tc main_v10) = _
  after_results
  rw [hw]
  funext x
  obtain ⟨r, h, rfl⟩ : ∃ (r : Fin 1048576) (h : Fin 128), x = ix2 r h := ⟨x 0, x 1, eq_ix2 x⟩
  rw [G_ix2]
  have hr := r.isLt
  refine (shapeCast_apply _ _ _ (ix3 (srcOf r) (dstOf r) h) ?_).trans (cube_apply m c _ _ h r ?_)
  · show (S1024x1024x128.rowMajor (ix3 (srcOf r) (dstOf r) h)).val = (S1048576x128.rowMajor (ix2 r h)).val
    rw [Shape.rowMajor_val_three, Shape.rowMajor_val_two]
    show (r.val / 1024 * 1024 + r.val % 1024) * 128 + h.val = r.val * 128 + h.val
    omega
  · show r.val = r.val / 1024 * 1024 + r.val % 1024
    omega

/-! ## The run, read -/

/-- Every weakly fair execution of the kernel program ends with the result at the score array of the arguments, the
    arguments unchanged. -/
theorem run : θ_run defs (onTc (τ := τ) (main (F := Ideal))) ⟨m, fun _ => 0, ρ⟩ (fun r => ∀ c : Dev nD,
      r.2.mem ((c.tc : Thread nD τ).loc main_v10)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.EdgeScore.Kernel

end
-- ==== Proof.lean ====
/-
  The certificate of a pair-biased edge update: for `N = 1024` nodes, `H = 128` features and the `N²` edges
  `r = i·N + j`,
      out[r, h] = max( (Σₖ edge[r, k]·We[h, k] + be[h]) + ⟨node[i] @ Wi.T, node[j] @ Wj.T⟩ , 0 ).

  The kernel program computes the table of pair terms on the host (three contractions, one operand transposed),
  views the edges as an `N × N × H` cube, and streams the cube through a grid of 128 points, each taking eight source
  nodes: per source node one `N × H` by `H × H` matrix product against the transposed weight, plus the bias row, plus
  that node's row of pair terms spread across the features, clamped at zero; a closing reshape lists the edges again.
  The reference does the same on whole arrays, flattening the table of pair terms instead of cubing the edges.
  On the extended reals both are the function `Cert.EdgeScore.G` (Proof/Spec.lean): the reference by its stages read at
  an index (Proof/RefScore.lean), the kernel by the host lines before the region (Proof/KernelArrays.lean), one store
  of the body (Proof/KernelRow.lean), the eight stores of a block (Proof/KernelBlock.lean) and the 128 blocks and the
  closing reshape (Proof/KernelResult.lean). Both group the sum as (linear + bias) + pair term, so no arithmetic law
  joins them and the finiteness of the inputs is not used. The idealization rewrote nothing, so `preserves` is trivial;
  the two kernel frames are the generated ones, the reference's frame is its run with the result forgotten.
-/
import proofs.«141986_j23983097381473_1_alg».proof.Defs
import proofs.«141986_j23983097381473_1_alg».proof.Proof.Gen.Kernel
import proofs.«141986_j23983097381473_1_alg».proof.Proof.Gen.Kernel.Frame
import proofs.«141986_j23983097381473_1_alg».proof.Proof.Gen.KernelIdeal
import proofs.«141986_j23983097381473_1_alg».proof.Proof.Gen.KernelIdeal.Frame
import proofs.«141986_j23983097381473_1_alg».proof.Proof.Gen.ReferenceIdeal
import proofs.«141986_j23983097381473_1_alg».proof.Proof.Gen.Pre_finite_inputs
import proofs.«141986_j23983097381473_1_alg».proof.Proof.Gen.ReferenceIdeal.Run
import proofs.«141986_j23983097381473_1_alg».proof.Proof.Gen.ReferenceIdeal.Read
import proofs.«141986_j23983097381473_1_alg».proof.Proof.RefScore
import proofs.«141986_j23983097381473_1_alg».proof.Proof.KernelResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments as they were. -/
theorem frame_reference : Cert.frame_ReferenceIdeal := fun m ρ _ =>
  (θ_run Cert.ReferenceIdeal.defs _ _).mono (fun _ h c => (h c).2) (Cert.ReferenceIdeal.Value.run (F := Ideal) m ρ)

/-- Both programs end at the score array of their arguments, and the arguments agree. -/
theorem algebraic : Cert.algebraic_KernelIdeal_ReferenceIdeal := by
  intro m ρ m' ρ' _ hagree
  refine ⟨_, Cert.EdgeScore.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v13_eq, Cert.EdgeScore.Ref.result_eq, a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
